-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x384 : Shape := ⟨3, ![4, 256, 384]⟩
abbrev S4x384 : Shape := ⟨2, ![4, 384]⟩
abbrev S100000x384 : Shape := ⟨2, ![100000, 384]⟩
abbrev S2000x384 : Shape := ⟨2, ![2000, 384]⟩
abbrev S_ : Shape := ⟨0, ![]⟩

class Facts : Prop where
  bcast_S_S4x256x384 : S_.BroadcastsInDim S4x256x384 (![] : Fin 0 → Fin S4x256x384.rank)
  reducesTo_S4x256x384_S_d0_1_2 : S4x256x384.ReducesTo [0, 1, 2] S_
  h_S_ : 0 < S_.numel
  bcast_S_S4x384 : S_.BroadcastsInDim S4x384 (![] : Fin 0 → Fin S4x384.rank)
  reducesTo_S4x384_S_d0_1 : S4x384.ReducesTo [0, 1] S_
  bcast_S_S100000x384 : S_.BroadcastsInDim S100000x384 (![] : Fin 0 → Fin S100000x384.rank)
  reducesTo_S100000x384_S_d0_1 : S100000x384.ReducesTo [0, 1] S_
  bcast_S_S2000x384 : S_.BroadcastsInDim S2000x384 (![] : Fin 0 → Fin S2000x384.rank)
  reducesTo_S2000x384_S_d0_1 : S2000x384.ReducesTo [0, 1] S_

variable [Facts]

def fn_part1 {F : FTy → Type} [FloatOps F] (main_v13 : IVec S_ 1) (main_v16 : IVec S2000x384 1) : IVec S_ 1 :=
  let main_c_5 : IVec S_ 1 := constantI S_ 1 1#1
  let main_v17 : IVec S_ 1 := (fun x v => Host.reduce IntOp.andi x v reducesTo_S2000x384_S_d0_1 h_S_) main_v16 main_c_5
  let main_v18 : IVec S_ 1 := andi main_v13 main_v17
  main_v18

def fn {F : FTy → Type} [FloatOps F] (main_arg0 : FVec F S4x256x384 .f32) (main_arg1 : FVec F S4x384 .f32) (main_arg2 : FVec F S100000x384 .f32) (main_arg3 : FVec F S2000x384 .f32) : IVec S_ 1 :=
  let main_v0 : FVec F S4x256x384 .f32 := Host.absf main_arg0
  let main_cst : FVec F S_ .f32 := constant S_ .f32 0x7F800000#32
  let main_v1 : FVec F S4x256x384 .f32 := broadcastInDim S4x256x384 ![] bcast_S_S4x256x384 main_cst
  let main_v2 : IVec S4x256x384 1 := cmpf .olt main_v0 main_v1
  let main_c : IVec S_ 1 := constantI S_ 1 1#1
  let main_v3 : IVec S_ 1 := (fun x v => Host.reduce IntOp.andi x v reducesTo_S4x256x384_S_d0_1_2 h_S_) main_v2 main_c
  let main_v4 : FVec F S4x384 .f32 := Host.absf main_arg1
  let main_cst_0 : FVec F S_ .f32 := constant S_ .f32 0x7F800000#32
  let main_v5 : FVec F S4x384 .f32 := broadcastInDim S4x384 ![] bcast_S_S4x384 main_cst_0
  let main_v6 : IVec S4x384 1 := cmpf .olt main_v4 main_v5
  let main_c_1 : IVec S_ 1 := constantI S_ 1 1#1
  let main_v7 : IVec S_ 1 := (fun x v => Host.reduce IntOp.andi x v reducesTo_S4x384_S_d0_1 h_S_) main_v6 main_c_1
  let main_v8 : IVec S_ 1 := andi main_v3 main_v7
  let main_v9 : FVec F S100000x384 .f32 := Host.absf main_arg2
  let main_cst_2 : FVec F S_ .f32 := constant S_ .f32 0x7F800000#32
  let main_v10 : FVec F S100000x384 .f32 := broadcastInDim S100000x384 ![] bcast_S_S100000x384 main_cst_2
  let main_v11 : IVec S100000x384 1 := cmpf .olt main_v9 main_v10
  let main_c_3 : IVec S_ 1 := constantI S_ 1 1#1
  let main_v12 : IVec S_ 1 := (fun x v => Host.reduce IntOp.andi x v reducesTo_S100000x384_S_d0_1 h_S_) main_v11 main_c_3
  let main_v13 : IVec S_ 1 := andi main_v8 main_v12
  let main_v14 : FVec F S2000x384 .f32 := Host.absf main_arg3
  let main_cst_4 : FVec F S_ .f32 := constant S_ .f32 0x7F800000#32
  let main_v15 : FVec F S2000x384 .f32 := broadcastInDim S2000x384 ![] bcast_S_S2000x384 main_cst_4
  let main_v16 : IVec S2000x384 1 := cmpf .olt main_v14 main_v15
  fn_part1 (F := F) main_v13 main_v16
-- ==== Kernel.lean ====
abbrev S4x256x384 : Shape := ⟨3, ![4, 256, 384]⟩
abbrev S4x384 : Shape := ⟨2, ![4, 384]⟩
abbrev S100000x384 : Shape := ⟨2, ![100000, 384]⟩
abbrev S2000x384 : Shape := ⟨2, ![2000, 384]⟩
abbrev S_ : Shape := ⟨0, ![]⟩
abbrev S4x256 : Shape := ⟨2, ![4, 256]⟩
abbrev S4x256x1 : Shape := ⟨3, ![4, 256, 1]⟩
abbrev S4 : Shape := ⟨1, ![4]⟩
abbrev S4x1 : Shape := ⟨2, ![4, 1]⟩
abbrev S1024x384 : Shape := ⟨2, ![1024, 384]⟩
abbrev S384x1024 : Shape := ⟨2, ![384, 1024]⟩
abbrev S2x1x1024 : Shape := ⟨3, ![2, 1, 1024]⟩
abbrev S1000x384 : Shape := ⟨2, ![1000, 384]⟩
abbrev S1x1x1024 : Shape := ⟨3, ![1, 1, 1024]⟩
abbrev S1x1024 : Shape := ⟨2, ![1, 1024]⟩
abbrev S1000 : Shape := ⟨1, ![1000]⟩
abbrev S1000x1 : Shape := ⟨2, ![1000, 1]⟩
abbrev S1024 : Shape := ⟨1, ![1024]⟩
abbrev S1000x1024 : Shape := ⟨2, ![1000, 1024]⟩
abbrev S2000 : Shape := ⟨1, ![2000]⟩
abbrev S1x2000 : Shape := ⟨2, ![1, 2000]⟩
abbrev S4x2000 : Shape := ⟨2, ![4, 2000]⟩
abbrev S384x2000 : Shape := ⟨2, ![384, 2000]⟩

abbrev nBuf : Space → Nat
  | .hbm => 63
  | .vmem => 5
  | .smem => 0
  | _ => 0

abbrev bufTy : (tb : Table) → Fin (tcTables nBuf tb) → BufTy
  | .hbm, ⟨0, _⟩ => ⟨S4x256x384, .f32⟩
  | .hbm, ⟨1, _⟩ => ⟨S4x384, .f32⟩
  | .hbm, ⟨2, _⟩ => ⟨S100000x384, .f32⟩
  | .hbm, ⟨3, _⟩ => ⟨S2000x384, .f32⟩
  | .hbm, ⟨4, _⟩ => ⟨S4x256x384, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S4x256x384, .f32⟩
  | .hbm, ⟨13, _⟩ => ⟨S4x256x384, .f32⟩
  | .hbm, ⟨14, _⟩ => ⟨S4x384, .f32⟩
  | .hbm, ⟨15, _⟩ => ⟨S_, .f32⟩
  | .hbm, ⟨16, _⟩ => ⟨S4, .f32⟩
  | .hbm, ⟨17, _⟩ => ⟨S4x1, .f32⟩
  | .hbm, ⟨18, _⟩ => ⟨S4x1, .f32⟩
  | .hbm, ⟨19, _⟩ => ⟨S_, .f32⟩
  | .hbm, ⟨20, _⟩ => ⟨S4x1, .f32⟩
  | .hbm, ⟨21, _⟩ => ⟨S4x1, .f32⟩
  | .hbm, ⟨22, _⟩ => ⟨S4x384, .f32⟩
  | .hbm, ⟨23, _⟩ => ⟨S4x384, .f32⟩
  | .hbm, ⟨24, _⟩ => ⟨S1024x384, .f32⟩
  | .hbm, ⟨25, _⟩ => ⟨S384x1024, .f32⟩
  | .hbm, ⟨26, _⟩ => ⟨S2x1x1024, .f32⟩
  | .hbm, ⟨27, _⟩ => ⟨S_, .f32⟩
  | .hbm, ⟨28, _⟩ => ⟨S1x1024, .f32⟩
  | .hbm, ⟨29, _⟩ => ⟨S1024, .f32⟩
  | .hbm, ⟨30, _⟩ => ⟨S4x256, .f32⟩
  | .hbm, ⟨31, _⟩ => ⟨S_, .f32⟩
  | .hbm, ⟨32, _⟩ => ⟨S4, .f32⟩
  | .hbm, ⟨33, _⟩ => ⟨S4x384, .f32⟩
  | .hbm, ⟨34, _⟩ => ⟨S_, .f32⟩
  | .hbm, ⟨35, _⟩ => ⟨S4, .f32⟩
  | .hbm, ⟨36, _⟩ => ⟨S2000x384, .f32⟩
  | .hbm, ⟨37, _⟩ => ⟨S_, .f32⟩
  | .hbm, ⟨38, _⟩ => ⟨S2000, .f32⟩
  | .hbm, ⟨39, _⟩ => ⟨S4x1, .f32⟩
  | .hbm, ⟨40, _⟩ => ⟨S1x2000, .f32⟩
  | .hbm, ⟨41, _⟩ => ⟨S4x2000, .f32⟩
  | .hbm, ⟨42, _⟩ => ⟨S4x2000, .f32⟩
  | .hbm, ⟨43, _⟩ => ⟨S4x2000, .f32⟩
  | .hbm, ⟨44, _⟩ => ⟨S384x2000, .f32⟩
  | .hbm, ⟨45, _⟩ => ⟨S4x2000, .f32⟩
  | .hbm, ⟨46, _⟩ => ⟨S_, .f32⟩
  | .hbm, ⟨47, _⟩ => ⟨S4x2000, .f32⟩
  | .hbm, ⟨48, _⟩ => ⟨S4x2000, .f32⟩
  | .hbm, ⟨49, _⟩ => ⟨S4x2000, .f32⟩
  | .hbm, ⟨50, _⟩ => ⟨S_, .f32⟩
  | .hbm, ⟨51, _⟩ => ⟨S4x2000, .f32⟩
  | .hbm, ⟨52, _⟩ => ⟨S4x2000, .f32⟩
  | .hbm, ⟨53, _⟩ => ⟨S4x2000, .f32⟩
  | .hbm, ⟨54, _⟩ => ⟨S_, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .local _ .vmem, ⟨0, _⟩ => ⟨S384x1024, .f32⟩
  | .local _ .vmem, ⟨1, _⟩ => ⟨S1000x384, .f32⟩
  | .local _ .vmem, ⟨2, _⟩ => ⟨S1000x384, .f32⟩
  | .local _ .vmem, ⟨3, _⟩ => ⟨S1x1x1024, .f32⟩
  | .local _ .vmem, ⟨4, _⟩ => ⟨S1x1x1024, .f32⟩
  | _, _ => ⟨S4x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S384x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x256x384_S4x256_d2 : S4x256x384.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x384_0_1_2 : S4x256x1.BroadcastsInDim S4x256x384 (![0, 1, 2] : Fin 3 → Fin S4x256x384.rank)
  reducesTo_S4x384_S4_d1 : S4x384.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x384_0_1 : S4x1.BroadcastsInDim S4x384 (![0, 1] : Fin 2 → Fin S4x384.rank)
  shapeCasts_S4x256x384_S1024x384 : S4x256x384.ShapeCasts S1024x384
  transposes_S1024x384_S384x1024_1_0 : S1024x384.Transposes [1, 0] S384x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  inb_S1000x384_S1000x384_0_0 : ∀ a, (![0, 0] : Fin 2 → Nat) a + S1000x384.size a ≤ S1000x384.size a
  h_S1000x384 : 0 < S1000x384.numel
  reduces_S1000x384_S1000 : S1000x384.Reduces [1] S1000
  shapeCasts_S1000_S1000x1 : S1000.ShapeCasts S1000x1
  reduces_S384x1024_S1024 : S384x1024.Reduces [0] S1024
  shapeCasts_S1024_S1x1024 : S1024.ShapeCasts S1x1024
  bitsLt_bf16_f32 : FTy.bits .bf16 < FTy.bits .f32
  broadcasts_S1000x1_S1000x1024 : S1000x1.Broadcasts S1000x1024
  broadcasts_S1x1024_S1000x1024 : S1x1024.Broadcasts S1000x1024
  reduces_S1000x1024_S1024 : S1000x1024.Reduces [0] S1024
  reducesTo_S2x1x1024_S1x1024_d0 : S2x1x1024.ReducesTo [0] S1x1024
  shapeCasts_S1x1024_S1024 : S1x1024.ShapeCasts S1024
  shapeCasts_S1024_S4x256 : S1024.ShapeCasts S4x256
  reducesTo_S4x256_S4_d1 : S4x256.ReducesTo [1] S4
  reducesTo_S2000x384_S2000_d1 : S2000x384.ReducesTo [1] S2000
  bcast_S2000_S1x2000_1 : S2000.BroadcastsInDim S1x2000 (![1] : Fin 1 → Fin S1x2000.rank)
  bcast_S4x1_S4x2000_0_1 : S4x1.BroadcastsInDim S4x2000 (![0, 1] : Fin 2 → Fin S4x2000.rank)
  bcast_S1x2000_S4x2000_0_1 : S1x2000.BroadcastsInDim S4x2000 (![0, 1] : Fin 2 → Fin S4x2000.rank)
  transposes_S2000x384_S384x2000_1_0 : S2000x384.Transposes [1, 0] S384x2000
  bcast_S_S4x2000 : S_.BroadcastsInDim S4x2000 (![] : Fin 0 → Fin S4x2000.rank)
  reducesTo_S4x2000_S4_d1 : S4x2000.ReducesTo [1] S4
  bcast_S_S4 : S_.BroadcastsInDim S4 (![] : Fin 0 → Fin S4.rank)
  dot_S1000x384_S384x1024_S1000x1024_1_0_0_1_n_n_wf : DotDims.WF S1000x384 S384x1024 S1000x1024 [1] [0] [0] [1] [] []
  dot_S4x384_S384x2000_S4x2000_1_0_0_1_n_n_wf : DotDims.WF S4x384 S384x2000 S4x2000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x1024.size a ≤ S384x1024.size a
  hwx0_0 : ∀ i : grid0.Coords, EltTy.bits .f32 = 32 ∨ (Rect.block (s := S384x1024) S384x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x384.size a ≤ S100000x384.size a
  hwx0_1 : ∀ i : grid0.Coords, EltTy.bits .f32 = 32 ∨ (Rect.block (s := S100000x384) S1000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x1024.size a
  hwx0_2 : ∀ i : grid0.Coords, EltTy.bits .f32 = 32 ∨ (Rect.block (s := S2x1x1024) S1x1x1024.size (cc0_transform_2 i) (hinb0_2 i)).WholeWords (EltTy.packing .f32)

variable [Facts₀]

def dot_S1000x384_S384x1024_S1000x1024_1_0_0_1_n_n : DotDims S1000x384 S384x1024 S1000x1024 where
  lhsContracting := [1]
  rhsContracting := [0]
  lhsNonContracting := [0]
  rhsNonContracting := [1]
  lhsBatch := []
  rhsBatch := []
  wf := dot_S1000x384_S384x1024_S1000x1024_1_0_0_1_n_n_wf
def dot_S4x384_S384x2000_S4x2000_1_0_0_1_n_n : DotDims S4x384 S384x2000 S4x2000 where
  lhsContracting := [1]
  rhsContracting := [0]
  lhsNonContracting := [0]
  rhsNonContracting := [1]
  lhsBatch := []
  rhsBatch := []
  wf := dot_S4x384_S384x2000_S4x2000_1_0_0_1_n_n_wf

abbrev win0_0 : Pipeline.Window sig grid0 :=
  Pipeline.Window.ofSpec (Memref.whole main_v11) S384x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x384 : Shape := ⟨3, ![4, 256, 384]⟩
abbrev S4x384 : Shape := ⟨2, ![4, 384]⟩
abbrev S100000x384 : Shape := ⟨2, ![100000, 384]⟩
abbrev S2000x384 : Shape := ⟨2, ![2000, 384]⟩
abbrev S_ : Shape := ⟨0, ![]⟩
abbrev S4x256 : Shape := ⟨2, ![4, 256]⟩
abbrev S4x256x1 : Shape := ⟨3, ![4, 256, 1]⟩
abbrev S4 : Shape := ⟨1, ![4]⟩
abbrev S4x1 : Shape := ⟨2, ![4, 1]⟩
abbrev S100000 : Shape := ⟨1, ![100000]⟩
abbrev S1x1x100000 : Shape := ⟨3, ![1, 1, 100000]⟩
abbrev S4x256x100000 : Shape := ⟨3, ![4, 256, 100000]⟩
abbrev S2000 : Shape := ⟨1, ![2000]⟩
abbrev S1x2000 : Shape := ⟨2, ![1, 2000]⟩
abbrev S4x2000 : Shape := ⟨2, ![4, 2000]⟩
abbrev S384x2000 : Shape := ⟨2, ![384, 2000]⟩

abbrev nBuf : Space → Nat
  | .hbm => 78
  | .vmem => 0
  | .smem => 0
  | _ => 0

abbrev bufTy : (tb : Table) → Fin (tcTables nBuf tb) → BufTy
  | .hbm, ⟨0, _⟩ => ⟨S4x256x384, .f32⟩
  | .hbm, ⟨1, _⟩ => ⟨S4x384, .f32⟩
  | .hbm, ⟨2, _⟩ => ⟨S100000x384, .f32⟩
  | .hbm, ⟨3, _⟩ => ⟨S2000x384, .f32⟩
  | .hbm, ⟨4, _⟩ => ⟨S4x256x384, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S4x256x384, .f32⟩
  | .hbm, ⟨13, _⟩ => ⟨S4x256x384, .f32⟩
  | .hbm, ⟨14, _⟩ => ⟨S4x384, .f32⟩
  | .hbm, ⟨15, _⟩ => ⟨S_, .f32⟩
  | .hbm, ⟨16, _⟩ => ⟨S4, .f32⟩
  | .hbm, ⟨17, _⟩ => ⟨S4x1, .f32⟩
  | .hbm, ⟨18, _⟩ => ⟨S4x1, .f32⟩
  | .hbm, ⟨19, _⟩ => ⟨S_, .f32⟩
  | .hbm, ⟨20, _⟩ => ⟨S4x1, .f32⟩
  | .hbm, ⟨21, _⟩ => ⟨S4x1, .f32⟩
  | .hbm, ⟨22, _⟩ => ⟨S4x384, .f32⟩
  | .hbm, ⟨23, _⟩ => ⟨S4x384, .f32⟩
  | .hbm, ⟨24, _⟩ => ⟨S4x256x384, .f32⟩
  | .hbm, ⟨25, _⟩ => ⟨S_, .f32⟩
  | .hbm, ⟨26, _⟩ => ⟨S4x256, .f32⟩
  | .hbm, ⟨27, _⟩ => ⟨S100000x384, .f32⟩
  | .hbm, ⟨28, _⟩ => ⟨S_, .f32⟩
  | .hbm, ⟨29, _⟩ => ⟨S100000, .f32⟩
  | .hbm, ⟨30, _⟩ => ⟨S4x256x1, .f32⟩
  | .hbm, ⟨31, _⟩ => ⟨S1x1x100000, .f32⟩
  | .hbm, ⟨32, _⟩ => ⟨S4x256x100000, .f32⟩
  | .hbm, ⟨33, _⟩ => ⟨S4x256x100000, .f32⟩
  | .hbm, ⟨34, _⟩ => ⟨S4x256x100000, .f32⟩
  | .hbm, ⟨35, _⟩ => ⟨S4x256x100000, .f32⟩
  | .hbm, ⟨36, _⟩ => ⟨S_, .f32⟩
  | .hbm, ⟨37, _⟩ => ⟨S4x256x100000, .f32⟩
  | .hbm, ⟨38, _⟩ => ⟨S4x256x100000, .f32⟩
  | .hbm, ⟨39, _⟩ => ⟨S4x256x100000, .f32⟩
  | .hbm, ⟨40, _⟩ => ⟨S_, .f32⟩
  | .hbm, ⟨41, _⟩ => ⟨S4x256x100000, .f32⟩
  | .hbm, ⟨42, _⟩ => ⟨S4x256x100000, .f32⟩
  | .hbm, ⟨43, _⟩ => ⟨S4x256x100000, .f32⟩
  | .hbm, ⟨44, _⟩ => ⟨S_, .f32⟩
  | .hbm, ⟨45, _⟩ => ⟨S4x256, .f32⟩
  | .hbm, ⟨46, _⟩ => ⟨S_, .f32⟩
  | .hbm, ⟨47, _⟩ => ⟨S4, .f32⟩
  | .hbm, ⟨48, _⟩ => ⟨S4x384, .f32⟩
  | .hbm, ⟨49, _⟩ => ⟨S_, .f32⟩
  | .hbm, ⟨50, _⟩ => ⟨S4, .f32⟩
  | .hbm, ⟨51, _⟩ => ⟨S2000x384, .f32⟩
  | .hbm, ⟨52, _⟩ => ⟨S_, .f32⟩
  | .hbm, ⟨53, _⟩ => ⟨S2000, .f32⟩
  | .hbm, ⟨54, _⟩ => ⟨S4x1, .f32⟩
  | .hbm, ⟨55, _⟩ => ⟨S1x2000, .f32⟩
  | .hbm, ⟨56, _⟩ => ⟨S4x2000, .f32⟩
  | .hbm, ⟨57, _⟩ => ⟨S4x2000, .f32⟩
  | .hbm, ⟨58, _⟩ => ⟨S4x2000, .f32⟩
  | .hbm, ⟨59, _⟩ => ⟨S384x2000, .f32⟩
  | .hbm, ⟨60, _⟩ => ⟨S4x2000, .f32⟩
  | .hbm, ⟨61, _⟩ => ⟨S_, .f32⟩
  | .hbm, ⟨62, _⟩ => ⟨S4x2000, .f32⟩
  | .hbm, ⟨63, _⟩ => ⟨S4x2000, .f32⟩
  | .hbm, ⟨64, _⟩ => ⟨S4x2000, .f32⟩
  | .hbm, ⟨65, _⟩ => ⟨S_, .f32⟩
  | .hbm, ⟨66, _⟩ => ⟨S4x2000, .f32⟩
  | .hbm, ⟨67, _⟩ => ⟨S4x2000, .f32⟩
  | .hbm, ⟨68, _⟩ => ⟨S4x2000, .f32⟩
  | .hbm, ⟨69, _⟩ => ⟨S_, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | _, _ => ⟨S4x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  reducesTo_S4x256x384_S4x256_d2 : S4x256x384.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x384_0_1_2 : S4x256x1.BroadcastsInDim S4x256x384 (![0, 1, 2] : Fin 3 → Fin S4x256x384.rank)
  reducesTo_S4x384_S4_d1 : S4x384.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x384_0_1 : S4x1.BroadcastsInDim S4x384 (![0, 1] : Fin 2 → Fin S4x384.rank)
  reducesTo_S100000x384_S100000_d1 : S100000x384.ReducesTo [1] S100000
  bcast_S100000_S1x1x100000_2 : S100000.BroadcastsInDim S1x1x100000 (![2] : Fin 1 → Fin S1x1x100000.rank)
  bcast_S4x256x1_S4x256x100000_0_1_2 : S4x256x1.BroadcastsInDim S4x256x100000 (![0, 1, 2] : Fin 3 → Fin S4x256x100000.rank)
  bcast_S1x1x100000_S4x256x100000_0_1_2 : S1x1x100000.BroadcastsInDim S4x256x100000 (![0, 1, 2] : Fin 3 → Fin S4x256x100000.rank)
  bcast_S_S4x256x100000 : S_.BroadcastsInDim S4x256x100000 (![] : Fin 0 → Fin S4x256x100000.rank)
  reducesTo_S4x256x100000_S4x256_d2 : S4x256x100000.ReducesTo [2] S4x256
  reducesTo_S4x256_S4_d1 : S4x256.ReducesTo [1] S4
  reducesTo_S2000x384_S2000_d1 : S2000x384.ReducesTo [1] S2000
  bcast_S2000_S1x2000_1 : S2000.BroadcastsInDim S1x2000 (![1] : Fin 1 → Fin S1x2000.rank)
  bcast_S4x1_S4x2000_0_1 : S4x1.BroadcastsInDim S4x2000 (![0, 1] : Fin 2 → Fin S4x2000.rank)
  bcast_S1x2000_S4x2000_0_1 : S1x2000.BroadcastsInDim S4x2000 (![0, 1] : Fin 2 → Fin S4x2000.rank)
  transposes_S2000x384_S384x2000_1_0 : S2000x384.Transposes [1, 0] S384x2000
  bcast_S_S4x2000 : S_.BroadcastsInDim S4x2000 (![] : Fin 0 → Fin S4x2000.rank)
  reducesTo_S4x2000_S4_d1 : S4x2000.ReducesTo [1] S4
  bcast_S_S4 : S_.BroadcastsInDim S4 (![] : Fin 0 → Fin S4.rank)
  dot_S4x256x384_S100000x384_S4x256x100000_2_1_01_0_n_n_wf : DotDims.WF S4x256x384 S100000x384 S4x256x100000 [2] [1] [0, 1] [0] [] []
  dot_S4x384_S384x2000_S4x2000_1_0_0_1_n_n_wf : DotDims.WF S4x384 S384x2000 S4x2000 [1] [0] [0] [1] [] []

variable [Facts₀]

def dot_S4x256x384_S100000x384_S4x256x100000_2_1_01_0_n_n : DotDims S4x256x384 S100000x384 S4x256x100000 where
  lhsContracting := [2]
  rhsContracting := [1]
  lhsNonContracting := [0, 1]
  rhsNonContracting := [0]
  lhsBatch := []
  rhsBatch := []
  wf := dot_S4x256x384_S100000x384_S4x256x100000_2_1_01_0_n_n_wf
def dot_S4x384_S384x2000_S4x2000_1_0_0_1_n_n : DotDims S4x384 S384x2000 S4x2000 where
  lhsContracting := [1]
  rhsContracting := [0]
  lhsNonContracting := [0]
  rhsNonContracting := [1]
  lhsBatch := []
  rhsBatch := []
  wf := dot_S4x384_S384x2000_S4x2000_1_0_0_1_n_n_wf

class Facts : Prop extends Facts₀ where

variable [Facts]
-- ==== Proof.Distance.lean ====
/-
  The one real-valued function both programs compute for a pair of rows: the Euclidean distance between a
  normalised patch row `u` and a memory-bank row `v`, by the Gram identity
      d(u, v) = sqrt (max (|u|² + |v|² - 2 ⟨u, v⟩, 0)),
  read on the extended reals (every sum, product, difference, maximum and square root the exact one).
  The anomaly score takes, for every patch, the minimum of d over the 100000 bank rows; a minimum over
  an index set is characterised by its lower bounds, and that is the form every statement here has:
  `a ≤ minimum ↔ ∀ index, a ≤ d …`. No finiteness is needed anywhere: only commutativity of `+` and `*`
  and the lattice laws of `min`.
-/
import Idealize.ShloMosaic.PureOps.Ideal
import Idealize.ShloMosaic.PureOps.Ideal.Laws
import Idealize.ShloMosaic.Lib.ValueIdx

noncomputable section

open scoped BigOperators

namespace Cert.Distance

open Idealize.ShloMosaic Idealize.ShloMosaic.ValueIdx

/-- The clamped Gram-identity distance of two rows of length 384: the squared norms are added patch row first,
    twice the inner product is subtracted, the result is clamped at zero from below and its square root taken.
    The constants `2` and `0` are kept as the binary32 patterns both programs print. -/
def dist (u v : Fin 384 → EReal) : EReal :=
  Ideal.sqrt (max (((∑ k, u k * u k) + (∑ k, v k * v k))
      - Ideal.ofBits .f32 0x40000000#32 * (∑ k, u k * v k)) (Ideal.ofBits .f32 0x00000000#32))

/-- The same distance with the squared norms added bank row first and the inner product's factors swapped:
    addition and multiplication of extended reals commute. -/
theorem dist_comm_form (u v : Fin 384 → EReal) :
    Ideal.sqrt (max (((∑ k, v k * v k) + (∑ k, u k * u k))
      - Ideal.ofBits .f32 0x40000000#32 * (∑ k, v k * u k)) (Ideal.ofBits .f32 0x00000000#32)) = dist u v := by
  unfold dist
  rw [add_comm (∑ k, v k * v k)]
  simp only [mul_comm (v _) (u _)]

/-- Two extended reals with the same lower bounds are equal. -/
theorem eq_of_le_iff {x y : EReal} (h : ∀ a : EReal, a ≤ x ↔ a ≤ y) : x = y :=
  le_antisymm ((h x).mp le_rfl) ((h y).mpr le_rfl)

/-- The lower bounds of a fold of `min` from `⊤` over a finite set are the common lower bounds of its members. -/
theorem le_fold_min_top_iff {ι : Type} (s : Finset ι) (f : ι → EReal) (a : EReal) :
    a ≤ s.fold min ⊤ f ↔ ∀ i ∈ s, a ≤ f i := by
  classical
  induction s using Finset.induction_on with
  | empty => simp
  | insert i s hi ih =>
    rw [Finset.fold_insert hi, le_min_iff, ih]
    simp [Finset.forall_mem_insert]

end Cert.Distance

end
-- ==== Proof.Pieces.lean ====
/-
  What one grid point leaves in the output block, as a value. The body stores into its [1,1,1024] output block
  either twice (at the first point of a half: the splat of +∞, then the update) or once (the update alone);
  in both cases the last store covers the block, so the block ends at the update's value: the elementwise
  minimum of what the block held and the tile's column minima — at the first point of a half "what it held"
  is the splat just stored, elsewhere what the point before left.
-/
import proofs.«113568_j18674517803021_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first point of a half the block, holding `xo`, ends at the update of `xo` by the tile. -/
theorem out_B (c : Dev nD) (i : grid0.Coords) (a2 : Memref sig .tc .vmem S384x1024 .f32) (h2 : a2.IsWhole)
    (a3 : Memref sig .tc .vmem S1000x384 .f32) (h3 : a3.IsWhole) (a4 : Memref sig .tc .vmem S1x1x1024 .f32) (h4 : a4.IsWhole)
    (hc : ¬cond0_0 i) (x0 : Vec F S384x1024 .f32) (x1 : Vec F S1000x384 .f32) (xo : Vec F S1x1x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S384x1024) hz2,
    View.ld_unit_zero (S := S1000x384) hz2, View.ld_unit_zero (S := S1x1x1024) hz3]

/-- At the first point of a half the block ends at the update of the splat stored just before. -/
theorem out_A (c : Dev nD) (i : grid0.Coords) (a2 : Memref sig .tc .vmem S384x1024 .f32) (h2 : a2.IsWhole)
    (a3 : Memref sig .tc .vmem S1000x384 .f32) (h3 : a3.IsWhole) (a4 : Memref sig .tc .vmem S1x1x1024 .f32) (h4 : a4.IsWhole)
    (hc : cond0_0 i) (x0 : Vec F S384x1024 .f32) (x1 : Vec F S1000x384 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, View.ld_unit_zero (S := S384x1024) hz2,
    View.ld_unit_zero (S := S1000x384) hz2]

end Cert.KernelIdeal.Acc

end
-- ==== Proof.Blocks.lean ====
/-
  The launch's geometry. The grid has 100 points, point `t` = (half `t / 50`, tile `t % 50`). At point `t` the
  patch window is the whole transposed patch array, the bank window is rows `1000 t … 1000 t + 999` of the
  memory bank, and the output window is block `t / 50` of the [2,1,1024] result array, written back at the last
  point of each half (`t % 50 = 49`). Hence the result array ends holding, in its half `h`, what the body left
  in the output block after point `50 h + 49`.
-/
import proofs.«113568_j18674517803021_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The block indices of the three windows at a point, decided once over the grid. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 3) = t.val / 50 ∧ win0_2.index t (1 : Fin 3) = 0 ∧ win0_2.index t (2 : Fin 3) = 0 :=
  (by decide +kernel : ∀ t : Fin grid0.N, _)

/-- The windows' blocks and arrays under their literal types. -/
abbrev pblk (c : Dev nD) (t : Fin cfg0.N) : Vec F S384x1024 .f32 := iblk m c 0 t
abbrev mblk (c : Dev nD) (t : Fin cfg0.N) : Vec F S1000x384 .f32 := iblk m c 1 t
abbrev parr (c : Dev nD) : Vec F S384x1024 .f32 := V m c main_v11
abbrev marr (c : Dev nD) : Vec F S100000x384 .f32 := V m c main_arg2

/-- The patch window's block is the whole transposed patch array at every point. -/
theorem pblk_apply (c : Dev nD) (t : Fin cfg0.N) (k : Fin 384) (j : Fin 1024) :
    pblk m c t (ix2 k j) = parr m c (ix2 k j) := by
  obtain ⟨e0, e1, -⟩ := idx_facts t
  show iblk m c 0 t (ix2 k j) = V m c main_v11 (ix2 k j)
  unfold iblk
  rw [View.read_apply]
  show V m c main_v11 _ = V m c main_v11 _
  congr 1
  funext a
  apply Fin.ext
  match a with
  | ⟨0, _⟩ => show win0_0.index t (0 : Fin 2) * 384 + 1 * k.val = k.val; rw [e0]; omega
  | ⟨1, _⟩ => show win0_0.index t (1 : Fin 2) * 1024 + 1 * j.val = j.val; rw [e1]; omega

/-- Bank row `1000 t + r`. -/
abbrev bankRow (t : Fin cfg0.N) (r : Fin 1000) : Fin 100000 :=
  ⟨1000 * t.val + r.val, by have := lt_of_lt_of_eq t.isLt (show cfg0.N = 100 from N_0); have := r.isLt; omega⟩

/-- The bank window's block at point `t` is rows `1000 t …` of the bank. -/
theorem mblk_apply (c : Dev nD) (t : Fin cfg0.N) (r : Fin 1000) (k : Fin 384) :
    mblk m c t (ix2 r k) = marr m c (ix2 (bankRow t r) k) := by
  obtain ⟨-, -, e0, e1, -⟩ := idx_facts t
  show iblk m c 1 t (ix2 r k) = V m c main_arg2 (ix2 (bankRow t r) k)
  unfold iblk
  rw [View.read_apply]
  show V m c main_arg2 _ = V m c main_arg2 _
  congr 1
  funext a
  apply Fin.ext
  match a with
  | ⟨0, _⟩ => show win0_1.index t (0 : Fin 2) * 1000 + 1 * r.val = 1000 * t.val + r.val; rw [e0]; omega
  | ⟨1, _⟩ => show win0_1.index t (1 : Fin 2) * 384 + 1 * k.val = k.val; rw [e1]; omega

/-- The last point of half `h`. -/
abbrev halfEnd (h : Fin 2) : Fin cfg0.N :=
  ⟨50 * h.val + 49, by rw [show cfg0.N = 100 from N_0]; have := h.isLt; omega⟩

theorem outsAt0_congr (c : Dev nD) {n n' : ℕ} (e : n = n') (hn : n < cfg0.N) (hn' : n' < cfg0.N) :
    outsAt0 m c n hn = outsAt0 m c n' hn' := by subst e; rfl

/-- What the result array ends holding: in half `h`, lane `j`, what the output block held after the half's last point. -/
def finalHalves (c : Dev nD) : S2x1x1024.Idx → Elt F .f32 :=
  fun i => outsAt0 m c (halfEnd (i 0)).val (halfEnd (i 0)).isLt (ix3 (0 : Fin 1) (0 : Fin 1) (i 2))

/-- A point that writes back writes the block of `finalHalves` it owns. -/
theorem flushed_eq (c : Dev nD) (t : Fin cfg0.N) (hf : (cfg0.win 2).flush t = true) :
    (dats m 0 c).flushed 2 t = ((cfg0.win 2).blk t).view.read (Elt F) (finalHalves m c) := by
  have hN : t.val < 100 := lt_of_lt_of_eq t.isLt (show cfg0.N = 100 from N_0)
  have h49 : t.val % 50 = 49 := (flush0_2 t).mp hf
  obtain ⟨-, -, -, -, e0, e1, e2⟩ := idx_facts t
  show (cfg0.win 2).cut (grid0.coords t) ((dats m 0 c).after 2 t) = _
  rw [after0_2]
  funext j
  show outsAt0 m c t.val t.isLt j = finalHalves m c (((cfg0.win 2).blk t).view.emb j)
  have hj0 : (j 0).val = 0 := by have : (j 0).val < 1 := (j 0).isLt; omega
  have hj1 : (j 1).val = 0 := by have : (j 1).val < 1 := (j 1).isLt; omega
  have he0 : ((((cfg0.win 2).blk t).view.emb j) 0).val = t.val / 50 := by
    show win0_2.index t (0 : Fin 3) * 1 + 1 * (j 0).val = _; rw [e0, hj0]; omega
  have he2 : ((((cfg0.win 2).blk t).view.emb j) 2).val = (j 2).val := by
    show win0_2.index t (2 : Fin 3) * 1024 + 1 * (j 2).val = _; rw [e2]; omega
  unfold finalHalves
  have hjj : j = ix3 (0 : Fin 1) (0 : Fin 1) ((((cfg0.win 2).blk t).view.emb j) 2) := by
    funext a
    match a with
    | ⟨0, _⟩ => exact Fin.ext hj0
    | ⟨1, _⟩ => exact Fin.ext hj1
    | ⟨2, _⟩ => exact Fin.ext he2.symm
  rw [outsAt0_congr m c (show t.val = (halfEnd ((((cfg0.win 2).blk t).view.emb j) 0)).val from by
    show t.val = 50 * ((((cfg0.win 2).blk t).view.emb j) 0).val + 49; rw [he0]; omega) t.isLt (halfEnd _).isLt]
  exact congrArg _ hjj

/-- An index of the result array is in point `t`'s block iff each coordinate is in the block's range. -/
theorem mem_blk (t : Fin cfg0.N) (i : S2x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v12).slice (win0_2.rect t)).set ↔ _
  rw [View.set_slice_whole, Rect.mem_set_unit]
  exact Iff.rfl

/-- So the result array after the run is `finalHalves`: the two written-back blocks cover it. -/
theorem final_halves (c : Dev nD) : (dats m 0 c).arrAt 2 cfg0.N = finalHalves m c :=
  (dats m 0 c).arrAt_eq_of_cover 2 (finalHalves m c) (flushed_eq m c) fun i => by
    have hi0 : (i 0).val < 2 := (i 0).isLt
    have hi1 : (i 1).val < 1 := (i 1).isLt
    have hi2 : (i 2).val < 1024 := (i 2).isLt
    obtain ⟨-, -, -, -, e0, e1, e2⟩ := idx_facts (halfEnd (i 0))
    refine ⟨halfEnd (i 0), (flush0_2 _).mpr (by show (50 * (i 0).val + 49) % 50 = 49; omega), ?_⟩
    rw [mem_blk]
    intro a
    match a with
    | ⟨0, _⟩ => show win0_2.index (halfEnd (i 0)) (0 : Fin 3) * 1 ≤ (i 0).val ∧ (i 0).val < win0_2.index (halfEnd (i 0)) (0 : Fin 3) * 1 + 1
                rw [e0]; show (50 * (i 0).val + 49) / 50 * 1 ≤ (i 0).val ∧ (i 0).val < (50 * (i 0).val + 49) / 50 * 1 + 1; omega
    | ⟨1, _⟩ => show win0_2.index (halfEnd (i 0)) (1 : Fin 3) * 1 ≤ (i 1).val ∧ (i 1).val < win0_2.index (halfEnd (i 0)) (1 : Fin 3) * 1 + 1
                rw [e1]; omega
    | ⟨2, _⟩ => show win0_2.index (halfEnd (i 0)) (2 : Fin 3) * 1024 ≤ (i 2).val ∧ (i 2).val < win0_2.index (halfEnd (i 0)) (2 : Fin 3) * 1024 + 1024
                rw [e2]; omega

end Cert.KernelIdeal.Acc

end
-- ==== Proof.TilePayload.lean ====
/-
  The arithmetic of the kernel body, read one lane at a time. The body holds a tile of 1000 memory-bank rows
  [1000, 384], the transposed normalised patches [384, 1024] (column j is patch j) and the running minimum
  [1, 1, 1024]. Its first stored value is the splat of plus infinity. Its second stored value is, at lane j,
      min (running minimum at j) (min over the 1000 rows r of d(patch j, bank row r)),
  where d is the clamped Gram-identity distance of Distance.lean: the body adds the bank row's squared norm first
  and multiplies bank entry by patch entry, which is that distance with the commutative laws applied. A minimum
  is characterised by its lower bounds, so the result is stated as
      a ≤ stored value at j  ↔  a ≤ running minimum at j  ∧  ∀ r, a ≤ d(patch j, bank row r).
  The steps: each layout operation (a reshape that adds or drops a unit axis, a broadcast along a unit axis) reads
  one element of its operand; each lane sum is the finite sum over the reduced axis; the matrix product into the
  zero accumulator is the sum over the contraction coordinate of the products; the column minimum from plus
  infinity is the fold of min from the top element over the rows.
-/
import proofs.«113568_j18674517803021_1_alg».proof.Proof.Distance
import proofs.«113568_j18674517803021_1_alg».proof.Proof.Gen.KernelIdeal.Skeleton
import Idealize.ShloMosaic.PureOps.Reduce
import Idealize.ShloMosaic.PureOps.Ideal.Laws
import Idealize.ShloMosaic.Lib.ValueIdx
import Idealize.ShloMosaic.Lib.ValueLayout
import Idealize.ShloMosaic.Lib.Pipeline.Value

noncomputable section

open scoped BigOperators

open Idealize.ShloMosaic Idealize.ShloMosaic.ValueIdx Cert.Distance

namespace Cert.KernelIdeal.Body

open Cert.KernelIdeal Cert.KernelIdeal.Gen

/-- The binary32 pattern of plus infinity is the top of the extended reals. -/
theorem ofBits_inf_f32 : Ideal.ofBits .f32 0x7F800000#32 = (⊤ : EReal) := by
  simp [Ideal.ofBits, Ideal.ieee]

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The squared norm of a bank row: the lane sum of the tile's squares over axis 1, read at row r. -/
theorem rowSq_apply (v5 : FVec Ideal S1000x384 .f32) (r : Fin 1000) :
    multiReduction (F := Ideal) .add [1] S1000 (mulf v5 v5) 0x00000000#32 reduces_S1000x384_S1000 (.inl rfl) rfl (ix1 r)
      = ∑ k : Fin 384, v5 (ix2 r k) * v5 (ix2 r k) := by
  refine (Ideal.multiReduction_add_single (mulf v5 v5) _ reduces_S1000x384_S1000 _ _ (ix1 r)).trans ?_
  refine Finset.sum_congr rfl fun k _ => ?_
  have e : reduces_S1000x384_S1000.lift (ix1 r) k = ix2 r k := funext fun a => Fin.ext (by
    match a with
    | ⟨0, _⟩ => rfl
    | ⟨1, _⟩ => rfl)
  rw [e]
  rfl

/-- The squared norm of a patch column: the sum of the squares over axis 0, read at column j. -/
theorem colSq_apply (v4 : FVec Ideal S384x1024 .f32) (j : Fin 1024) :
    multiReduction (F := Ideal) .add [0] S1024 (mulf v4 v4) 0x00000000#32 reduces_S384x1024_S1024 (.inl rfl) rfl (ix1 j)
      = ∑ k : Fin 384, v4 (ix2 k j) * v4 (ix2 k j) := by
  refine (Ideal.multiReduction_add_single (mulf v4 v4) _ reduces_S384x1024_S1024 _ _ (ix1 j)).trans ?_
  refine Finset.sum_congr rfl fun k _ => ?_
  have e : reduces_S384x1024_S1024.lift (ix1 j) k = ix2 k j := funext fun a => Fin.ext (by
    match a with
    | ⟨0, _⟩ => rfl
    | ⟨1, _⟩ => rfl)
  rw [e]
  rfl

/-- The column minimum over the 1000 rows from plus infinity, read at column j: the fold of min from the top over the rows. -/
theorem colMin_apply (x : FVec Ideal S1000x1024 .f32) (j : Fin 1024) :
    multiReduction (F := Ideal) .minimumf [0] S1024 x 0x7F800000#32 reduces_S1000x1024_S1024 (.inl rfl) rfl (ix1 j)
      = (Finset.univ : Finset (Fin 1000)).fold min ⊤ (fun r => x (ix2 r j)) := by
  refine (multiReduction_minimumf_eq_fold x _ reduces_S1000x1024_S1024 _ _ (ix1 j)).trans ?_
  refine (reduces_S1000x1024_S1024.fold_filter_drop_single _ _ x (ix1 j)).trans ?_
  have e : (x ∘ reduces_S1000x1024_S1024.lift (ix1 j)) = fun r : Fin 1000 => x (ix2 r j) := funext fun r => by
    show x (reduces_S1000x1024_S1024.lift (ix1 j) r) = x (ix2 r j)
    refine congrArg x (funext fun a => Fin.ext ?_)
    match a with
    | ⟨0, _⟩ => rfl
    | ⟨1, _⟩ => rfl
  show (Finset.univ : Finset (Fin 1000)).fold min (Ideal.ofBits .f32 0x7F800000#32) (x ∘ reduces_S1000x1024_S1024.lift (ix1 j)) = _
  rw [e, ofBits_inf_f32]
  rfl

/-- The left operand's index of the kernel's product keeps the result's row on its axis 0 … -/
theorem lhs_dot_0 (i : S1000x1024.Idx) (q : dot_S1000x384_S384x1024_S1000x1024_1_0_0_1_n_n.contr.Idx) :
    (dot_S1000x384_S384x1024_S1000x1024_1_0_0_1_n_n.lhsIdx i q 0).val = (i 0).val := by
  unfold DotDims.lhsIdx
  rw [dif_neg (show ¬(0 : Fin S1000x384.rank) ∈ dot_S1000x384_S384x1024_S1000x1024_1_0_0_1_n_n.lhsBatch by decide), dif_pos (show (0 : Fin S1000x384.rank) ∈ dot_S1000x384_S384x1024_S1000x1024_1_0_0_1_n_n.lhsNonContracting by decide)]
  rfl
/-- … and carries the contraction coordinate on its axis 1. -/
theorem lhs_dot_1 (i : S1000x1024.Idx) (q : dot_S1000x384_S384x1024_S1000x1024_1_0_0_1_n_n.contr.Idx) :
    (dot_S1000x384_S384x1024_S1000x1024_1_0_0_1_n_n.lhsIdx i q 1).val = (q ⟨0, by decide⟩).val :=
  dot_S1000x384_S384x1024_S1000x1024_1_0_0_1_n_n.lhsIdx_val_of_single rfl i q
/-- The right operand's index carries the contraction coordinate on its axis 0 … -/
theorem rhs_dot_0 (i : S1000x1024.Idx) (q : dot_S1000x384_S384x1024_S1000x1024_1_0_0_1_n_n.contr.Idx) :
    (dot_S1000x384_S384x1024_S1000x1024_1_0_0_1_n_n.rhsIdx i q 0).val = (q ⟨0, by decide⟩).val :=
  dot_S1000x384_S384x1024_S1000x1024_1_0_0_1_n_n.rhsIdx_val_of_single rfl i q
/-- … and keeps the result's column on its axis 1. -/
theorem rhs_dot_1 (i : S1000x1024.Idx) (q : dot_S1000x384_S384x1024_S1000x1024_1_0_0_1_n_n.contr.Idx) :
    (dot_S1000x384_S384x1024_S1000x1024_1_0_0_1_n_n.rhsIdx i q 1).val = (i 1).val := by
  unfold DotDims.rhsIdx
  rw [dif_neg (show ¬(1 : Fin S384x1024.rank) ∈ dot_S1000x384_S384x1024_S1000x1024_1_0_0_1_n_n.rhsBatch by decide), dif_pos (show (1 : Fin S384x1024.rank) ∈ dot_S1000x384_S384x1024_S1000x1024_1_0_0_1_n_n.rhsNonContracting by decide)]
  rfl

/-- The product of the bank tile with the patch matrix into the zero accumulator, read at (r, j): the inner product of
    bank row r with patch column j. Narrowing the operands' format changes nothing on the extended reals. -/
theorem dot_apply (v5 : FVec Ideal S1000x384 .f32) (v4 : FVec Ideal S384x1024 .f32) (r : Fin 1000) (j : Fin 1024) :
    matmul (F := Ideal) dot_S1000x384_S384x1024_S1000x1024_1_0_0_1_n_n none (truncf .bf16 v5 bitsLt_bf16_f32)
        (truncf .bf16 v4 bitsLt_bf16_f32) (constant (F := Ideal) S1000x1024 .f32 0x00000000#32) (ix2 r j)
      = ∑ k : Fin 384, v5 (ix2 r k) * v4 (ix2 k j) := by
  simp only [matmul]
  rw [Ideal.matmul_constant_zero_apply, ← Equiv.sum_comp (contrEquiv1 dot_S1000x384_S384x1024_S1000x1024_1_0_0_1_n_n 384 rfl rfl).symm]
  refine Finset.sum_congr rfl fun k _ => ?_
  have hk := contrEquiv1_symm_val dot_S1000x384_S384x1024_S1000x1024_1_0_0_1_n_n 384 rfl rfl k
  have el : dot_S1000x384_S384x1024_S1000x1024_1_0_0_1_n_n.lhsIdx (ix2 r j) ((contrEquiv1 dot_S1000x384_S384x1024_S1000x1024_1_0_0_1_n_n 384 rfl rfl).symm k) = ix2 r k := funext fun a => Fin.ext (by
    match a with
    | ⟨0, _⟩ => exact lhs_dot_0 _ _
    | ⟨1, _⟩ => exact (lhs_dot_1 _ _).trans hk)
  have er : dot_S1000x384_S384x1024_S1000x1024_1_0_0_1_n_n.rhsIdx (ix2 r j) ((contrEquiv1 dot_S1000x384_S384x1024_S1000x1024_1_0_0_1_n_n 384 rfl rfl).symm k) = ix2 k j := funext fun a => Fin.ext (by
    match a with
    | ⟨0, _⟩ => exact (rhs_dot_0 _ _).trans hk
    | ⟨1, _⟩ => exact rhs_dot_1 _ _)
  rw [el, er]
  rfl

/-- One entry of the distance tile from its three ingredients: the two broadcast squared norms, the doubled inner
    product subtracted, the clamp at zero and the square root, each read at the same index. -/
theorem elt_apply (A B D : FVec Ideal S1000x1024 .f32) (i : S1000x1024.Idx) :
    sqrt (F := Ideal) (maximumf (subf (addf A B) (mulf (broadcast S1000x1024 (Scalar.ofBits (F := Ideal) .f32 0x40000000#32)) D))
        (broadcast S1000x1024 (Scalar.ofBits (F := Ideal) .f32 0x00000000#32))) i
      = Ideal.sqrt (max ((A i + B i) - Ideal.ofBits .f32 0x40000000#32 * D i) (Ideal.ofBits .f32 0x00000000#32)) := rfl

/-- The second stored value at lane j: the smaller of the running minimum there and the least distance from patch j
    to the tile's 1000 bank rows. -/
theorem pay2_apply (v3 : Vec Ideal S384x1024 .f32) (v5 : Vec Ideal S1000x384 .f32) (v26 : Vec Ideal S1x1x1024 .f32)
    (j : Fin 1024) :
    k0_pay2 (F := Ideal) v3 v5 v26 (ix3 0 0 j)
      = min (v26 (ix3 0 0 j)) ((Finset.univ : Finset (Fin 1000)).fold min ⊤
          (fun r => dist (fun k => v3 (ix2 k j)) (fun k => v5 (ix2 r k)))) := by
  unfold k0_pay2
  refine (shapeCast_ab_1ab_apply _ shapeCasts_S1x1024_S1x1x1024 (0 : Fin 1) (0 : Fin 1) j).trans ?_
  refine (minimumf_apply _ _ (ix2 (0 : Fin 1) j)).trans ?_
  refine congrArg₂ min (shapeCast_1ab_ab_apply v26 shapeCasts_S1x1x1024_S1x1024 (0 : Fin 1) j) ?_
  refine (shapeCast_a_1a_apply _ shapeCasts_S1024_S1x1024 (0 : Fin 1) j).trans ?_
  refine (colMin_apply _ j).trans ?_
  refine congrArg (fun f => (Finset.univ : Finset (Fin 1000)).fold min ⊤ f) (funext fun r => ?_)
  rw [shapeCast_self v3 shapeCasts_S384x1024_S384x1024]
  refine Eq.trans ?_ (dist_comm_form (fun k => v3 (ix2 k j)) (fun k => v5 (ix2 r k)))
  refine (elt_apply _ _ _ (ix2 r j)).trans ?_
  refine congrArg Ideal.sqrt (congrArg (fun t => max t _) (congrArg₂ (fun s t => s - _ * t) (congrArg₂ (· + ·) ?_ ?_) ?_))
  · exact (broadcastTo_a1_ab_apply _ broadcasts_S1000x1_S1000x1024 r j).trans
      ((shapeCast_a_a1_apply _ shapeCasts_S1000_S1000x1 r (0 : Fin 1)).trans (rowSq_apply v5 r))
  · exact (broadcastTo_1b_ab_apply _ broadcasts_S1x1024_S1000x1024 r j).trans
      ((shapeCast_a_1a_apply _ shapeCasts_S1024_S1x1024 (0 : Fin 1) j).trans (colSq_apply v3 j))
  · exact dot_apply v5 v3 r j

/-- The first stored value is plus infinity at every lane. -/
theorem pay1_apply (j : Fin 1024) : k0_pay1 (F := Ideal) (ix3 0 0 j) = ⊤ := by
  unfold k0_pay1
  refine (shapeCast_ab_1ab_apply _ shapeCasts_S1x1024_S1x1x1024 (0 : Fin 1) (0 : Fin 1) j).trans ?_
  exact ofBits_inf_f32

/-- The lower bounds of the second stored value at lane j: those of the running minimum there that are also lower
    bounds of the distance from patch j to every one of the tile's 1000 bank rows. -/
theorem le_pay2_iff (v3 : Vec Ideal S384x1024 .f32) (v5 : Vec Ideal S1000x384 .f32) (v26 : Vec Ideal S1x1x1024 .f32)
    (j : Fin 1024) (a : EReal) :
    a ≤ k0_pay2 (F := Ideal) v3 v5 v26 (ix3 0 0 j)
      ↔ a ≤ v26 (ix3 0 0 j) ∧ ∀ r : Fin 1000, a ≤ dist (fun k => v3 (ix2 k j)) (fun k => v5 (ix2 r k)) := by
  rw [pay2_apply, le_min_iff, le_fold_min_top_iff]
  exact and_congr_right fun _ => ⟨fun h r => h r (Finset.mem_univ r), fun h r _ => h r⟩

end Cert.KernelIdeal.Body

end
-- ==== Proof.RunningMin.lean ====
/-
  The running minimum across the grid. The output block of half `h` is reset to +∞ at the half's first tile and
  then, tile after tile, replaced by the elementwise minimum of itself and the tile's column minima. A minimum is
  the greatest lower bound, so after point `n` lane `j` of the block is characterised by its lower bounds:
  `a` is below it iff `a` is below the distance from patch `j` to every bank row of every tile of the same
  half up to `n`. The proof is an induction on the point; no tile is ever enumerated.
-/
import proofs.«113568_j18674517803021_1_alg».proof.Proof.Distance
import proofs.«113568_j18674517803021_1_alg».proof.Proof.Pieces
import proofs.«113568_j18674517803021_1_alg».proof.Proof.Blocks
import proofs.«113568_j18674517803021_1_alg».proof.Proof.TilePayload

noncomputable section

open Idealize.ShloMosaic Idealize.ShloMosaic.TcCoe Idealize.SL.Sem Idealize.ShloMosaic.ValueIdx Cert.Distance
open Idealize.ShloMosaic.Pipeline (Dat)

namespace Cert.KernelIdeal.Acc

open Cert.KernelIdeal Cert.KernelIdeal.Gen Cert.KernelIdeal.Body

section AnyValues
variable {F : FTy → Type} [FloatOps F]
variable (m : (ℓ : Loc nD τ sig) → Buf (Elt F) ℓ)

/-- At the first point of a half the output block ends at the update of the +∞ splat by the point's tile. -/
theorem outs_first (c : Dev nD) (t : Fin cfg0.N) (h0 : t.val % 50 = 0) :
    outsAt0 m c t.val t.isLt = k0_pay2 (pblk m c t) (mblk m c t) k0_pay1 :=
  (outsAt0_A m c t h0).trans
    (out_A (F := F) c (grid0.coords t) (ms0_0 t) (hs0_0 t) (ms0_1 t) (hs0_1 t) (ms0_2 t) (hs0_2 t) ((hcond0_0 t).mpr h0)
      (iblk m c 0 t) (iblk m c 1 t))

/-- At any other point it ends at the update of what the point before left. -/
theorem outs_next (c : Dev nD) (t : Fin cfg0.N) (h0 : ¬t.val % 50 = 0) :
    outsAt0 m c t.val t.isLt
      = k0_pay2 (pblk m c t) (mblk m c t) (outsAt0 m c (t.val - 1) (Nat.lt_of_le_of_lt (Nat.sub_le _ _) t.isLt)) :=
  (outsAt0_B m c t h0).trans
    (out_B (F := F) c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt)))

end AnyValues

variable (m : (ℓ : Loc nD τ sig) → Buf (Elt Ideal) ℓ)

/-- The distance between patch `j` (a column of the transposed patch array) and bank row `r` of tile `t`. -/
def tileDist (c : Dev nD) (t : Fin cfg0.N) (r : Fin 1000) (j : Fin 1024) : EReal :=
  dist (fun k => parr m c (ix2 k j)) (fun k => marr m c (ix2 (bankRow t r) k))

/-- The lower bounds of one update: those of the value updated that are below every distance of the tile. -/
theorem le_update_iff (c : Dev nD) (t : Fin cfg0.N) (v : Vec Ideal S1x1x1024 .f32) (j : Fin 1024) (a : EReal) :
    a ≤ k0_pay2 (F := Ideal) (pblk m c t) (mblk m c t) v (ix3 0 0 j)
      ↔ a ≤ v (ix3 0 0 j) ∧ ∀ r : Fin 1000, a ≤ tileDist m c t r j := by
  rw [le_pay2_iff]
  unfold tileDist
  simp only [pblk_apply, mblk_apply]

/-- THE RUNNING MINIMUM. After point `n` lane `j` of the output block is bounded below exactly by the common lower
    bounds of the distances from patch `j` to every bank row of the tiles of the same half up to `n`. -/
theorem le_outsAt_iff (c : Dev nD) (j : Fin 1024) (a : EReal) : ∀ (n : ℕ) (hn : n < cfg0.N),
    a ≤ outsAt0 m c n hn (ix3 0 0 j)
      ↔ ∀ u : Fin cfg0.N, u.val / 50 = n / 50 → u.val ≤ n → ∀ r : Fin 1000, a ≤ tileDist m c u r j := by
  intro n
  induction n with
  | zero =>
    intro hn
    rw [show outsAt0 m c 0 hn = _ from outs_first m c ⟨0, hn⟩ rfl, le_update_iff, pay1_apply]
    constructor
    · rintro ⟨-, h⟩ u hu hle r
      obtain rfl : u = ⟨0, hn⟩ := Fin.ext (by show u.val = 0; omega)
      exact h r
    · intro h
      exact ⟨le_top, fun r => h ⟨0, hn⟩ rfl le_rfl r⟩
  | succ n ih =>
    intro hn
    by_cases h0 : (n + 1) % 50 = 0
    · rw [show outsAt0 m c (n + 1) hn = _ from outs_first m c ⟨n + 1, hn⟩ h0, le_update_iff, pay1_apply]
      constructor
      · rintro ⟨-, h⟩ u hu hle r
        obtain rfl : u = ⟨n + 1, hn⟩ := Fin.ext (by show u.val = n + 1; omega)
        exact h r
      · intro h
        exact ⟨le_top, fun r => h ⟨n + 1, hn⟩ rfl le_rfl r⟩
    · rw [show outsAt0 m c (n + 1) hn = _ from outs_next m c ⟨n + 1, hn⟩ h0, le_update_iff]
      show a ≤ outsAt0 m c n _ (ix3 0 0 j) ∧ _ ↔ _
      rw [ih]
      constructor
      · rintro ⟨hprev, hnew⟩ u hu hle r
        by_cases hun : u.val ≤ n
        · exact hprev u (by omega) hun r
        · obtain rfl : u = ⟨n + 1, hn⟩ := Fin.ext (by show u.val = n + 1; omega)
          exact hnew r
      · intro h
        exact ⟨fun u hu hle r => h u (by omega) (by omega) r, fun r => h ⟨n + 1, hn⟩ rfl le_rfl r⟩

/-- So lane `j` of half `h` of the result array is bounded below exactly by the common lower bounds of the
    distances from patch `j` to the bank rows of the half's fifty tiles. -/
theorem le_finalHalves_iff (c : Dev nD) (h : Fin 2) (j : Fin 1024) (a : EReal) :
    a ≤ finalHalves m c (ix3 h 0 j)
      ↔ ∀ u : Fin cfg0.N, u.val / 50 = h.val → ∀ r : Fin 1000, a ≤ tileDist m c u r j := by
  unfold finalHalves
  show a ≤ outsAt0 m c (halfEnd h).val (halfEnd h).isLt (ix3 0 0 j) ↔ _
  rw [le_outsAt_iff]
  have hh : h.val < 2 := h.isLt
  constructor
  · intro H u hu r
    have hu' : u.val < 100 := lt_of_lt_of_eq u.isLt (show cfg0.N = 100 from N_0)
    exact H u (by show u.val / 50 = (50 * h.val + 49) / 50; omega) (by show u.val ≤ 50 * h.val + 49; omega) r
  · intro H u hu _ r
    exact H u (by have : u.val / 50 = (50 * h.val + 49) / 50 := hu; omega) r

end Cert.KernelIdeal.Acc

end
-- ==== Proof.BankMin.lean ====
/-
  The reference's row minimum. For a patch (b, q) the reference takes the minimum, over the 100000 rows n of the
  memory bank, of
      sqrt (max ((|p|² + |m_n|²) - 2 ⟨p, m_n⟩, 0)),
  where p is the normalised patch row at (b, q) and m_n is row n of the bank. Each of the three sums over the 384
  features starts from the value 0, so it is the plain sum; the element at (b, q, n) is therefore the clamped
  Gram-identity distance `dist p m_n` of the shared specification, with the constants 2 and 0 left as the same
  binary32 patterns on both sides. The minimum over n starts from +∞, the top of the extended reals, and a fold of
  `min` from the top is characterised by its lower bounds: a ≤ the minimum iff a ≤ every member. The normalised
  patch is never looked into: only its value at an index is used.
-/
import proofs.«113568_j18674517803021_1_alg».proof.Proof.Distance
import proofs.«113568_j18674517803021_1_alg».proof.Proof.Gen.ReferenceIdeal.Read
import Idealize.ShloMosaic.PureOps.Reduce
import Idealize.ShloMosaic.PureOps.Ideal.Laws
import Idealize.ShloMosaic.Lib.ValueIdx

noncomputable section

open scoped BigOperators
open Idealize.ShloMosaic Idealize.ShloMosaic.ValueIdx Cert.Distance

namespace Cert.ReferenceIdeal.Bank
open Cert.ReferenceIdeal Cert.ReferenceIdeal.Gen

/-- The binary32 pattern of +∞ is the top element of the extended reals. -/
theorem posInf_f32 : Ideal.ofBits .f32 0x7F800000#32 = (⊤ : EReal) := by
  simp [Ideal.ofBits, Ideal.ieee]

/-- The squared norm of the normalised patch row at (b, q): the sum over the 384 features of its squares
    (the sum starts from 0, and 0 + s = s). -/
theorem patchSq (x0 : (⟨S4x256x384, .f32⟩ : BufTy).Contents (Elt Ideal)) (b : Fin 4) (q : Fin 256) :
    Read.val_main_v11 (F := Ideal) x0 (ix2 b q)
      = ∑ k : Fin 384, Read.val_main_v4 (F := Ideal) x0 (ix3 b q k) * Read.val_main_v4 (F := Ideal) x0 (ix3 b q k) := by
  rw [Read.val_main_v11_apply, Read.val_main_cst_1_apply]
  refine (congrArg (· + _) Ideal.ofBits_zero_f32).trans ((zero_add _).trans ?_)
  refine Finset.sum_congr rfl fun k _ => ?_
  rw [Read.val_main_v10_apply]
  -- the summand's index is (b, q, k), coordinate by coordinate
  have e : Read.idx_main_v11 (ix2 b q) k = ix3 b q k :=
    funext fun a => by match a with | ⟨0, _⟩ => rfl | ⟨1, _⟩ => rfl | ⟨2, _⟩ => rfl
  rw [e]; rfl

/-- The squared norm of bank row n: the sum over the 384 features of its squares. -/
theorem bankSq (x2 : (⟨S100000x384, .f32⟩ : BufTy).Contents (Elt Ideal)) (n : Fin 100000) :
    Read.val_main_v13 (F := Ideal) x2 (ix1 n) = ∑ k : Fin 384, x2 (ix2 n k) * x2 (ix2 n k) := by
  rw [Read.val_main_v13_apply, Read.val_main_cst_2_apply]
  refine (congrArg (· + _) Ideal.ofBits_zero_f32).trans ((zero_add _).trans ?_)
  refine Finset.sum_congr rfl fun k _ => ?_
  rw [Read.val_main_v12_apply]
  -- the summand's index is (n, k)
  have e : Read.idx_main_v13 (ix1 n) k = ix2 n k :=
    funext fun a => by match a with | ⟨0, _⟩ => rfl | ⟨1, _⟩ => rfl
  rw [e]; rfl

/-- The inner product of the normalised patch row at (b, q) with bank row n: the contraction over the feature axis
    reads the patch at (b, q, k) and the bank at (n, k). -/
theorem inner (x0 : (⟨S4x256x384, .f32⟩ : BufTy).Contents (Elt Ideal)) (x2 : (⟨S100000x384, .f32⟩ : BufTy).Contents (Elt Ideal))
    (b : Fin 4) (q : Fin 256) (n : Fin 100000) :
    Read.val_main_v19 (F := Ideal) x0 x2 (ix3 b q n)
      = ∑ k : Fin 384, Read.val_main_v4 (F := Ideal) x0 (ix3 b q k) * x2 (ix2 n k) := by
  rw [Read.val_main_v19_apply]
  refine Finset.sum_congr rfl fun k _ => ?_
  have el : Read.lidx_main_v19 (ix3 b q n) k = ix3 b q k :=
    funext fun a => by match a with | ⟨0, _⟩ => rfl | ⟨1, _⟩ => rfl | ⟨2, _⟩ => rfl
  have er : Read.ridx_main_v19 (ix3 b q n) k = ix2 n k :=
    funext fun a => by match a with | ⟨0, _⟩ => rfl | ⟨1, _⟩ => rfl
  rw [el, er]

/-- The reference's minimum over the bank axis, at patch (b, q), is the fold of `min` from the top over the 100000
    bank rows of the element at (b, q, n): the source indices over (b, q) are (b, q, n), one for each n, and `min`
    is commutative and associative, so the order of the fold does not matter. -/
theorem rowMin_eq_fold (x0 : (⟨S4x256x384, .f32⟩ : BufTy).Contents (Elt Ideal)) (x2 : (⟨S100000x384, .f32⟩ : BufTy).Contents (Elt Ideal))
    (b : Fin 4) (q : Fin 256) :
    Read.val_main_v26 (F := Ideal) x0 x2 (ix2 b q)
      = (Finset.univ : Finset (Fin 100000)).fold min (⊤ : EReal)
          (fun n => Read.val_main_v25 (F := Ideal) x0 x2 (ix3 b q n)) := by
  unfold Read.val_main_v26
  generalize Read.val_main_v25 (F := Ideal) x0 x2 = y
  have hR : S4x256x100000.Reduces [2] S4x256 := by decide
  refine (Host.reduce_eq_fold_single (FloatOps.minimumf (F := Ideal) (φ := .f32)) y (Read.val_main_cst_5 (F := Ideal))
    reducesTo_S4x256x100000_S4x256_d2 hR h_S_ (ix2 b q)).trans ?_
  rw [Read.val_main_cst_5_apply]
  -- (b, q) with n inserted on the last axis is (b, q, n)
  have e : y ∘ hR.lift (ix2 b q) = fun n : Fin 100000 => y (ix3 b q n) :=
    funext fun n => congrArg y (funext fun a => Fin.ext (by
      match a with | ⟨0, _⟩ => rfl | ⟨1, _⟩ => rfl | ⟨2, _⟩ => rfl))
  rw [e]
  -- the initial value +∞ is the top
  exact congrArg (fun t => (Finset.univ : Finset (Fin 100000)).fold min t fun n => y (ix3 b q n)) posInf_f32

/-- The element at (b, q, n) before the minimum is the clamped Gram-identity distance of the normalised patch row
    at (b, q) and bank row n: the two squared norms are broadcast along the other's axes and added, twice the inner
    product is subtracted, the result is clamped at 0 from below and its square root taken. -/
theorem v25_apply (x0 : (⟨S4x256x384, .f32⟩ : BufTy).Contents (Elt Ideal)) (x2 : (⟨S100000x384, .f32⟩ : BufTy).Contents (Elt Ideal))
    (b : Fin 4) (q : Fin 256) (n : Fin 100000) :
    Read.val_main_v25 (F := Ideal) x0 x2 (ix3 b q n)
      = dist (fun k => Read.val_main_v4 (F := Ideal) x0 (ix3 b q k)) (fun k => x2 (ix2 n k)) := by
  rw [Read.val_main_v25_apply, Read.val_main_v24_apply, Read.val_main_v22_apply, Read.val_main_v23_apply,
    Read.val_main_cst_4_apply, Read.val_main_v18_apply, Read.val_main_v21_apply, Read.val_main_v20_apply,
    Read.val_main_cst_3_apply, Read.val_main_v16_apply, Read.val_main_v14_apply, Read.val_main_v17_apply,
    Read.val_main_v15_apply]
  -- the broadcast of the patch's squared norm reads it at (b, q); that of the bank's at n
  have e11 : Read.idx_main_v14 (Read.idx_main_v16 (ix3 b q n)) = ix2 b q :=
    funext fun a => by match a with | ⟨0, _⟩ => rfl | ⟨1, _⟩ => rfl
  have e13 : Read.idx_main_v15 (Read.idx_main_v17 (ix3 b q n)) = ix1 n :=
    funext fun a => by match a with | ⟨0, _⟩ => rfl
  rw [e11, e13, patchSq, bankSq, inner]
  rfl

/-- The lower bounds of the reference's row minimum at patch (b, q) are the common lower bounds of the distances from
    the normalised patch row to the 100000 bank rows. -/
theorem le_rowMin_iff (x0 : (⟨S4x256x384, .f32⟩ : BufTy).Contents (Elt Ideal)) (x2 : (⟨S100000x384, .f32⟩ : BufTy).Contents (Elt Ideal))
    (b : Fin 4) (q : Fin 256) (a : EReal) :
    a ≤ Read.val_main_v26 (F := Ideal) x0 x2 (ix2 b q)
      ↔ ∀ n : Fin 100000, a ≤ dist (fun k => Read.val_main_v4 (F := Ideal) x0 (ix3 b q k)) (fun k => x2 (ix2 n k)) := by
  rw [rowMin_eq_fold, le_fold_min_top_iff]
  refine ⟨fun h n => ?_, fun h n _ => ?_⟩
  · rw [← v25_apply]; exact h n (Finset.mem_univ n)
  · rw [v25_apply]; exact h n

end Cert.ReferenceIdeal.Bank

end
-- ==== Proof.HostSide.lean ====
/-
  The host operations around the launch, read as mathematics.

  Before the launch the program normalises the patches (each row divided by its Euclidean norm plus a small
  constant), reshapes [4, 256, 384] to [1024, 384] and transposes to [384, 1024]: entry (k, 256·b + q) of the matrix
  the launch reads is entry (b, q, k) of the normalised patches (`pt_apply`).

  After the launch the program takes, for every patch, the minimum over the two halves of the launch's result
  [2, 1, 1024], reshapes [1, 1024] → [1024] → [4, 256], takes the maximum over the 256 patches of every image, and
  adds 0.7 times that to 0.3 times the distance of the normalised global descriptor to its nearest global-bank row.
  The global part and the final combination are, operation for operation, the reference's; so if the minimum of the
  two halves at patch 256·b + q is the reference's per-patch minimum at (b, q), the program's result is the
  reference's (`tail_eq_ref`).
-/
import proofs.«113568_j18674517803021_1_alg».proof.Proof.Distance
import proofs.«113568_j18674517803021_1_alg».proof.Proof.Gen.KernelIdeal.Frame
import proofs.«113568_j18674517803021_1_alg».proof.Proof.Gen.ReferenceIdeal.Read
import Idealize.ShloMosaic.Lib.Pipeline.Value
import Idealize.ShloMosaic.Lib.StableHlo.Run

noncomputable section
open Idealize.ShloMosaic Idealize.ShloMosaic.TcCoe Idealize.SL.Sem Idealize.ShloMosaic.ValueIdx Cert.Distance
open Idealize.ShloMosaic.Pipeline (Dat)

namespace Cert.KernelIdeal.HostSide
open Cert.KernelIdeal Cert.KernelIdeal.Gen

variable (m : (ℓ : Loc nD τ sig) → Buf (Elt Ideal) ℓ)

/-- flat patch number -/
abbrev flat (b : Fin 4) (q : Fin 256) : Fin 1024 := ⟨256 * b.val + q.val, by have := b.isLt; have := q.isLt; omega⟩

/-- The transposed patch matrix the launch reads is, operation for operation, the reference's normalised patches
    reshaped to one row per patch and transposed. -/
theorem v11_term (c : Dev nD) :
    (V m c main_v11 : S384x1024.Idx → EReal)
      = transpose S384x1024 [1, 0]
          (shapeCast S1024x384 (Cert.ReferenceIdeal.Read.val_main_v4 (F := Ideal) (m ((c : Thread nD τ).loc main_arg0))) shapeCasts_S4x256x384_S1024x384)
          transposes_S1024x384_S384x1024_1_0 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Entry (k, 256·b + q) of the transposed patch matrix is entry (b, q, k) of the normalised patches: the transpose
    swaps the two coordinates, and the reshape keeps the row-major position, (256·b + q)·384 + k on both sides. -/
theorem pt_apply (c : Dev nD) (k : Fin 384) (b : Fin 4) (q : Fin 256) :
    (V m c main_v11 : S384x1024.Idx → EReal) (ix2 k (flat b q))
      = Cert.ReferenceIdeal.Read.val_main_v4 (F := Ideal) (m ((c : Thread nD τ).loc main_arg0)) (ix3 b q k) := by
  rw [v11_term m c]
  refine (transpose_apply _ _ transposes_S1024x384_S384x1024_1_0 (ix2 k (flat b q)) (ix2 (flat b q) k) (fun a => ?_)).trans ?_
  · match a with
    | ⟨0, _⟩ => rfl
    | ⟨1, _⟩ => rfl
  · refine shapeCast_apply _ shapeCasts_S4x256x384_S1024x384 (ix2 (flat b q) k) (ix3 b q k) ?_
    rw [Shape.rowMajor_val_two, Shape.rowMajor_val_three]
    show (b.val * 256 + q.val) * 384 + k.val = (256 * b.val + q.val) * 384 + k.val
    omega

/-- the result array of the launch -/
abbrev halves (c : Dev nD) : S2x1x1024.Idx → EReal := (dats m 0 c).arrAt 2 cfg0.N

/-- The normalised global descriptors are the reference's, operation for operation. -/
theorem v9_term (c : Dev nD) :
    (V m c main_v9 : S4x384.Idx → EReal)
      = Cert.ReferenceIdeal.Read.val_main_v9 (F := Ideal) (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The per-patch minimum over the two halves, laid out as [4, 256]: the minimum from +inf over the leading axis of
    extent 2, then the two reshapes [1, 1024] → [1024] → [4, 256]. -/
def patchMin (c : Dev nD) : S4x256.Idx → EReal :=
  shapeCast S4x256
    (shapeCast S1024
      (Host.reduce (FloatOps.minimumf (F := Ideal) (φ := .f32)) (halves m c) (constant (F := Ideal) S_ .f32 0x7F800000#32)
        reducesTo_S2x1x1024_S1x1024_d0 h_S_)
      shapeCasts_S1x1024_S1024)
    shapeCasts_S1024_S4x256

/-- The program's result after the launch: 0.7 times the maximum over the patches of the per-patch minimum, plus
    0.3 times the global-bank distance, the latter operation for operation the reference's. -/
theorem tail_term (c : Dev nD) :
    Pipeline.afterTail₀ cfgs (dats m) 0 (V0 m) [hostOps1] c main_v39
      = addf (mulf (Cert.ReferenceIdeal.Read.val_main_v46 (F := Ideal))
            (Host.reduce (FloatOps.maximumf (F := Ideal) (φ := .f32)) (patchMin m c) (Cert.ReferenceIdeal.Read.val_main_cst_6 (F := Ideal))
              reducesTo_S4x256_S4_d1 h_S_))
          (Cert.ReferenceIdeal.Read.val_main_v49 (F := Ideal) (m ((c : Thread nD τ).loc main_arg1)) (m ((c : Thread nD τ).loc main_arg3))) := by
  unfold Pipeline.afterTail₀
  show StableHlo.after hostOps1 _ (Proc.devRef .tc main_v39) = _
  simp only [Gen.hostOps1]
  after_results_simp
  have hW12 : Pipeline.withArrays (cfgs 0).spec c (V0 m c) (fun w => (dats m 0 c).arrAt w (cfgs 0).N) (Proc.devRef .tc main_v12) = halves m c :=
    Pipeline.withArrays_arr spec0 launch0.win.arr_inj c _ _ 2
  have hW9 : Pipeline.withArrays (cfgs 0).spec c (V0 m c) (fun w => (dats m 0 c).arrAt w (cfgs 0).N) (Proc.devRef .tc main_v9)
      = Cert.ReferenceIdeal.Read.val_main_v9 (F := Ideal) (m ((c : Thread nD τ).loc main_arg1)) :=
    (Pipeline.withArrays_of_ne _ c (V0 m c) _ main_v9 (by exact (by decide : ∀ w, Pipeline.arrRef spec0 w ≠ main_v9))).trans (v9_term m c)
  have hW3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [hW12, hW9, hW3]
  rfl

/-- A minimum from +inf over an axis of extent 2 is the minimum of the two entries: both have the same lower bounds. -/
theorem fold_min_two (f : Fin 2 → EReal) : (Finset.univ : Finset (Fin 2)).fold min ⊤ f = min (f 0) (f 1) := by
  refine eq_of_le_iff fun a => ?_
  rw [le_fold_min_top_iff, le_min_iff]
  constructor
  · intro h; exact ⟨h 0 (Finset.mem_univ _), h 1 (Finset.mem_univ _)⟩
  · rintro ⟨h0, h1⟩ i _
    match i with
    | ⟨0, _⟩ => exact h0
    | ⟨1, _⟩ => exact h1

/-- The same, for an array read along a family of two indices. -/
theorem fold_min_pair {ι : Type} (x : ι → EReal) (g : Fin 2 → ι) :
    (Finset.univ : Finset (Fin 2)).fold min ⊤ (x ∘ g) = min (x (g 0)) (x (g 1)) := fold_min_two _

/-- The binary32 pattern 0x7F800000 is +inf. -/
theorem inf_eq_top : Ideal.ofBits .f32 0x7F800000#32 = (⊤ : EReal) := by simp [Ideal.ofBits, Ideal.ieee]

/-- The per-patch minimum at patch (b, q): the two reshapes keep the row-major position 256·b + q, and the minimum
    over the leading axis is the minimum of the two halves there. -/
theorem patchMin_apply (c : Dev nD) (b : Fin 4) (q : Fin 256) :
    patchMin m c (ix2 b q) = min (halves m c (ix3 0 0 (flat b q))) (halves m c (ix3 1 0 (flat b q))) := by
  unfold patchMin
  refine (shapeCast_apply _ shapeCasts_S1024_S4x256 (ix2 b q) (ix1 (flat b q)) ?_).trans ?_
  · rw [Shape.rowMajor_val_one, Shape.rowMajor_val_two]
    show 256 * b.val + q.val = b.val * 256 + q.val
    omega
  refine (shapeCast_apply _ shapeCasts_S1x1024_S1024 (ix1 (flat b q)) (ix2 0 (flat b q)) ?_).trans ?_
  · rw [Shape.rowMajor_val_one, Shape.rowMajor_val_two]
    show 0 * 1024 + (256 * b.val + q.val) = 256 * b.val + q.val
    omega
  refine (Host.reduce_eq_fold_single (FloatOps.minimumf (F := Ideal) (φ := .f32)) (halves m c) _ reducesTo_S2x1x1024_S1x1024_d0
    (by decide : S2x1x1024.Reduces [0] S1x1024) h_S_ (ix2 0 (flat b q))).trans ?_
  refine (congrArg (fun t => (Finset.univ : Finset (Fin 2)).fold min t _) inf_eq_top).trans ?_
  refine (fold_min_pair (halves m c) _).trans ?_
  refine congrArg₂ min (congrArg (halves m c) ?_) (congrArg (halves m c) ?_)
  · funext d
    match d with
    | ⟨0, _⟩ => rfl
    | ⟨1, _⟩ => rfl
    | ⟨2, _⟩ => rfl
  · funext d
    match d with
    | ⟨0, _⟩ => rfl
    | ⟨1, _⟩ => rfl
    | ⟨2, _⟩ => rfl

theorem tail_eq_ref (c : Dev nD)
    (hH : ∀ (b : Fin 4) (q : Fin 256),
      min (halves m c (ix3 0 0 (flat b q))) (halves m c (ix3 1 0 (flat b q)))
        = Cert.ReferenceIdeal.Read.val_main_v26 (F := Ideal) (m ((c : Thread nD τ).loc main_arg0)) (m ((c : Thread nD τ).loc main_arg2)) (ix2 b q)) :
    Pipeline.afterTail₀ cfgs (dats m) 0 (V0 m) [hostOps1] c main_v39
      = Cert.ReferenceIdeal.Read.val_main_v50 (F := Ideal) (m ((c : Thread nD τ).loc main_arg0)) (m ((c : Thread nD τ).loc main_arg1))
          (m ((c : Thread nD τ).loc main_arg2)) (m ((c : Thread nD τ).loc main_arg3)) := by
  have hX : patchMin m c
      = Cert.ReferenceIdeal.Read.val_main_v26 (F := Ideal) (m ((c : Thread nD τ).loc main_arg0)) (m ((c : Thread nD τ).loc main_arg2)) := by
    funext i
    obtain ⟨b, q, rfl⟩ : ∃ (b : Fin 4) (q : Fin 256), i = ix2 b q := ⟨i 0, i 1, eq_ix2 i⟩
    exact (patchMin_apply m c b q).trans (hH b q)
  rw [tail_term m c, hX]
  rfl

end Cert.KernelIdeal.HostSide
end
-- ==== Proof.Agreement.lean ====
/-
  The kernel's result is the reference's. The kernel scans the memory bank in 100 tiles of 1000 rows, fifty
  tiles per half, and keeps for every patch the running minimum of the clamped Gram-identity distances; the host
  then takes the smaller of the two halves. The reference takes, for every patch, one minimum over all 100000
  rows. Both are the greatest lower bound of the same family of distances — row `n` of the bank is row
  `n % 1000` of tile `n / 1000` — so they are equal: compare lower bounds. Everything after that minimum (the
  maximum over a sample's patches, the global-bank distance, the weighted sum) is the same operations on both
  sides.
-/
import proofs.«113568_j18674517803021_1_alg».proof.Proof.RunningMin
import proofs.«113568_j18674517803021_1_alg».proof.Proof.BankMin
import proofs.«113568_j18674517803021_1_alg».proof.Proof.HostSide

noncomputable section

open Idealize.ShloMosaic Idealize.ShloMosaic.TcCoe Idealize.SL.Sem Idealize.ShloMosaic.ValueIdx Cert.Distance
open Idealize.ShloMosaic.Pipeline (Dat)

namespace Cert.KernelIdeal.Acc

open Cert.KernelIdeal Cert.KernelIdeal.Gen Cert.KernelIdeal.HostSide

variable (m : (ℓ : Loc nD τ sig) → Buf (Elt Ideal) ℓ) (ρ : Dev nD → PrngReg)

/-- Every bank row lies in exactly one tile: row `n` is row `n % 1000` of tile `n / 1000`. -/
theorem bankRow_surj (n : Fin 100000) :
    ∃ (u : Fin cfg0.N) (r : Fin 1000), bankRow u r = n ∧ u.val / 50 < 2 := by
  have hn : n.val < 100000 := n.isLt
  refine ⟨⟨n.val / 1000, by rw [show cfg0.N = 100 from N_0]; omega⟩, ⟨n.val % 1000, by omega⟩, Fin.ext ?_, ?_⟩
  · show 1000 * (n.val / 1000) + n.val % 1000 = n.val; omega
  · show n.val / 1000 / 50 < 2; omega

/-- A tile's distance for patch (b, q) is the specification's distance between the normalised patch row and the
    bank row: the transposed patch array at (k, 256 b + q) is the normalised patches at (b, q, k), and the bank is
    the argument array. -/
theorem tileDist_eq (c : Dev nD) (u : Fin cfg0.N) (r : Fin 1000) (b : Fin 4) (q : Fin 256) :
    tileDist m c u r (flat b q)
      = dist (fun k => Cert.ReferenceIdeal.Read.val_main_v4 (F := Ideal) (m ((c : Thread nD τ).loc main_arg0)) (ix3 b q k))
          (fun k => (m ((c : Thread nD τ).loc main_arg2) : S100000x384.Idx → EReal) (ix2 (bankRow u r) k)) := by
  unfold tileDist
  have e1 : (fun k : Fin 384 => parr m c (ix2 k (flat b q)))
      = fun k => Cert.ReferenceIdeal.Read.val_main_v4 (F := Ideal) (m ((c : Thread nD τ).loc main_arg0)) (ix3 b q k) :=
    funext fun k => pt_apply m c k b q
  have e2 : (fun k : Fin 384 => marr m c (ix2 (bankRow u r) k))
      = fun k => (m ((c : Thread nD τ).loc main_arg2) : S100000x384.Idx → EReal) (ix2 (bankRow u r) k) :=
    funext fun k => congrFun (V_main_arg2 m c) _
  rw [e1, e2]

/-- THE TWO MINIMA AGREE. For every patch the smaller of the two halves' running minima is the reference's minimum
    over the whole bank: both are the greatest lower bound of the same 100000 distances, the kernel's taken tile by
    tile and half by half. -/
theorem halves_min_eq (c : Dev nD) (b : Fin 4) (q : Fin 256) :
    min (halves m c (ix3 0 0 (flat b q))) (halves m c (ix3 1 0 (flat b q)))
      = Cert.ReferenceIdeal.Read.val_main_v26 (F := Ideal) (m ((c : Thread nD τ).loc main_arg0))
          (m ((c : Thread nD τ).loc main_arg2)) (ix2 b q) := by
  refine eq_of_le_iff fun a => ?_
  rw [le_min_iff, Cert.ReferenceIdeal.Bank.le_rowMin_iff]
  show a ≤ (dats m 0 c).arrAt 2 cfg0.N (ix3 0 0 (flat b q)) ∧ a ≤ (dats m 0 c).arrAt 2 cfg0.N (ix3 1 0 (flat b q)) ↔ _
  rw [final_halves, le_finalHalves_iff, le_finalHalves_iff]
  constructor
  · rintro ⟨h0, h1⟩ n
    obtain ⟨u, r, rfl, hu⟩ := bankRow_surj n
    rw [← tileDist_eq]
    by_cases hh : u.val / 50 = 0
    · exact h0 u hh r
    · exact h1 u (by show u.val / 50 = 1; omega) r
  · intro H
    exact ⟨fun u _ r => by rw [tileDist_eq]; exact H _, fun u _ r => by rw [tileDist_eq]; exact H _⟩

/-- The kernel's run, read: its result is the reference's term of the argument arrays, the arguments unchanged. -/
theorem run : θ_run defs (onTc (τ := τ) (main (F := Ideal))) ⟨m, fun _ => 0, ρ⟩ fun r => ∀ c : Dev nD,
      r.2.mem ((c.tc : Thread nD τ).loc main_v39)
        = Cert.ReferenceIdeal.Read.val_main_v50 (F := Ideal) (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v39 (Pipeline.mem_restRefs_of main_v39 (by decide) (by decide))).trans
          (tail_eq_ref m c (halves_min_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 1).trans (((dats m 0 c).arrAt_in 1 rfl _).trans ((A_eq m c 1).trans (V_main_arg2 m c))),
        ((h c).2 main_arg3 (Pipeline.mem_restRefs_of main_arg3 (by decide) (by decide))).trans (W_main_arg3 m (dats m) c)⟩)
    (run_main m ρ)

end Cert.KernelIdeal.Acc

end
-- ==== Proof.lean ====
/-
  The anomaly score `0.7 · max over patches (min over the local bank of d) + 0.3 · min over the global bank of d`,
  `d` the Euclidean distance by the Gram identity, computed two ways: the reference takes the local minimum over
  all 100000 bank rows at once; the kernel streams the bank through a grid of 2 × 50 tiles, keeps a running
  minimum per half and lets the host combine the halves. Over the extended reals the two are equal for every
  input: a minimum is a greatest lower bound, and a bank row is in exactly one tile (Proof/Agreement.lean). The
  three frames: the kernel's two programs run by their generated frame runs, the reference by its generated run.
  The idealization rewrote nothing, so `preserves` is trivial.
-/
import proofs.«113568_j18674517803021_1_alg».proof.Defs
import proofs.«113568_j18674517803021_1_alg».proof.Proof.Gen.Kernel
import proofs.«113568_j18674517803021_1_alg».proof.Proof.Gen.Kernel.Frame
import proofs.«113568_j18674517803021_1_alg».proof.Proof.Gen.KernelIdeal
import proofs.«113568_j18674517803021_1_alg».proof.Proof.Gen.KernelIdeal.Frame
import proofs.«113568_j18674517803021_1_alg».proof.Proof.Gen.ReferenceIdeal
import proofs.«113568_j18674517803021_1_alg».proof.Proof.Gen.ReferenceIdeal.Run
import proofs.«113568_j18674517803021_1_alg».proof.Proof.Gen.ReferenceIdeal.Read
import proofs.«113568_j18674517803021_1_alg».proof.Proof.Gen.Pre_finite_inputs
import proofs.«113568_j18674517803021_1_alg».proof.Proof.Agreement
import Idealize.ShloMosaic.Adequacy
import Idealize.ShloMosaic.Init

noncomputable section

namespace Cert.Proof

open Idealize.ShloMosaic Idealize.SL.Sem

/-- Both idealized programs, run from memories that agree on the four arguments, end with the same score: the
    kernel's run ends at the reference's term of its own arguments, and the reference's run at that term of
    arguments that agree with them. -/
theorem algebraic [hKernelIdeal : Cert.KernelIdeal.Facts] [hReferenceIdeal : Cert.ReferenceIdeal.Facts]
    [hPre : Cert.Pre_finite_inputs.Facts] : Cert.algebraic_KernelIdeal_ReferenceIdeal := by
  intro m ρ m' ρ' _ hagree
  refine ⟨fun c => Cert.ReferenceIdeal.Read.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
